-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩

class Facts : Prop where
  bcast_S_S8x64x256 : S_.BroadcastsInDim S8x64x256 (![] : Fin 0 → Fin S8x64x256.rank)
  reducesTo_S8x64x256_S_d0_1_2 : S8x64x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768 .f32) (main_arg5 : FVec F S768x768 .f32) (main_arg6 : FVec F S768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x64x256 .f32) (main_arg1 : FVec F S256x512 .f32) (main_arg2 : FVec F S512 .f32) (main_arg3 : FVec F S512x768 .f32) (main_arg4 : FVec F S768 .f32) (main_arg5 : FVec F S768x768 .f32) (main_arg6 : FVec F S768 .f32) : IVec S_ 1 :=
  let main_v0 : FVec F S8x64x256 .f32 := Host.absf main_arg0
  let main_cst : FVec F S_ .f32 := constant S_ .f32 0x7F800000#32
  let main_v1 : FVec F S8x64x256 .f32 := broadcastInDim S8x64x256 ![] bcast_S_S8x64x256 main_cst
  let main_v2 : IVec S8x64x256 1 := cmpf .olt main_v0 main_v1
  let main_c : IVec S_ 1 := constantI S_ 1 1#1
  let main_v3 : IVec S_ 1 := (fun x v => Host.reduce IntOp.andi x v reducesTo_S8x64x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩
abbrev S8x64 : Shape := ⟨2, ![8, 64]⟩
abbrev S8x64x1 : Shape := ⟨3, ![8, 64, 1]⟩
abbrev S8x64x4x256 : Shape := ⟨4, ![8, 64, 4, 256]⟩
abbrev S8x256x256 : Shape := ⟨3, ![8, 256, 256]⟩
abbrev S8x256 : Shape := ⟨2, ![8, 256]⟩
abbrev S8x256x1 : Shape := ⟨3, ![8, 256, 1]⟩
abbrev S8x256x2x256 : Shape := ⟨4, ![8, 256, 2, 256]⟩
abbrev S8x512x256 : Shape := ⟨3, ![8, 512, 256]⟩
abbrev S8x512 : Shape := ⟨2, ![8, 512]⟩
abbrev S8x512x1 : Shape := ⟨3, ![8, 512, 1]⟩
abbrev S8x512x2x256 : Shape := ⟨4, ![8, 512, 2, 256]⟩
abbrev S8x1024x256 : Shape := ⟨3, ![8, 1024, 256]⟩
abbrev S8192x256 : Shape := ⟨2, ![8192, 256]⟩
abbrev S1x512 : Shape := ⟨2, ![1, 512]⟩
abbrev S8192x512 : Shape := ⟨2, ![8192, 512]⟩
abbrev S1024x256 : Shape := ⟨2, ![1024, 256]⟩
abbrev S1024x512 : Shape := ⟨2, ![1024, 512]⟩
abbrev S8x1024x512 : Shape := ⟨3, ![8, 1024, 512]⟩
abbrev S8x1024 : Shape := ⟨2, ![8, 1024]⟩
abbrev S8x1024x1 : Shape := ⟨3, ![8, 1024, 1]⟩
abbrev S8x1024x2x512 : Shape := ⟨4, ![8, 1024, 2, 512]⟩
abbrev S8x2048x512 : Shape := ⟨3, ![8, 2048, 512]⟩
abbrev S16384x512 : Shape := ⟨2, ![16384, 512]⟩
abbrev S1x768 : Shape := ⟨2, ![1, 768]⟩
abbrev S16384x768 : Shape := ⟨2, ![16384, 768]⟩
abbrev S1024x768 : Shape := ⟨2, ![1024, 768]⟩
abbrev S8x2048x768 : Shape := ⟨3, ![8, 2048, 768]⟩
abbrev S8x2048 : Shape := ⟨2, ![8, 2048]⟩
abbrev S8x2048x1 : Shape := ⟨3, ![8, 2048, 1]⟩
abbrev S8x2048x2x768 : Shape := ⟨4, ![8, 2048, 2, 768]⟩
abbrev S8x4096x768 : Shape := ⟨3, ![8, 4096, 768]⟩
abbrev S32768x768 : Shape := ⟨2, ![32768, 768]⟩

abbrev nBuf : Space → Nat
  | .hbm => 49
  | .vmem => 18
  | .smem => 0
  | _ => 0

abbrev bufTy : (tb : Table) → Fin (tcTables nBuf tb) → BufTy
  | .hbm, ⟨0, _⟩ => ⟨S8x64x256, .f32⟩
  | .hbm, ⟨1, _⟩ => ⟨S256x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S8x64, .f32⟩
  | .hbm, ⟨9, _⟩ => ⟨S8x64x1, .f32⟩
  | .hbm, ⟨10, _⟩ => ⟨S8x64x256, .f32⟩
  | .hbm, ⟨11, _⟩ => ⟨S8x64x4x256, .f32⟩
  | .hbm, ⟨12, _⟩ => ⟨S8x256x256, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S8x256x256, .f32⟩
  | .hbm, ⟨17, _⟩ => ⟨S8x256x2x256, .f32⟩
  | .hbm, ⟨18, _⟩ => ⟨S8x512x256, .f32⟩
  | .hbm, ⟨19, _⟩ => ⟨S_, .f32⟩
  | .hbm, ⟨20, _⟩ => ⟨S8x512, .f32⟩
  | .hbm, ⟨21, _⟩ => ⟨S8x512x1, .f32⟩
  | .hbm, ⟨22, _⟩ => ⟨S8x512x256, .f32⟩
  | .hbm, ⟨23, _⟩ => ⟨S8x512x2x256, .f32⟩
  | .hbm, ⟨24, _⟩ => ⟨S8x1024x256, .f32⟩
  | .hbm, ⟨25, _⟩ => ⟨S8192x256, .f32⟩
  | .hbm, ⟨26, _⟩ => ⟨S1x512, .f32⟩
  | .hbm, ⟨27, _⟩ => ⟨S8192x512, .f32⟩
  | .hbm, ⟨28, _⟩ => ⟨S8x1024x512, .f32⟩
  | .hbm, ⟨29, _⟩ => ⟨S_, .f32⟩
  | .hbm, ⟨30, _⟩ => ⟨S8x1024, .f32⟩
  | .hbm, ⟨31, _⟩ => ⟨S8x1024x1, .f32⟩
  | .hbm, ⟨32, _⟩ => ⟨S8x1024x512, .f32⟩
  | .hbm, ⟨33, _⟩ => ⟨S8x1024x2x512, .f32⟩
  | .hbm, ⟨34, _⟩ => ⟨S8x2048x512, .f32⟩
  | .hbm, ⟨35, _⟩ => ⟨S16384x512, .f32⟩
  | .hbm, ⟨36, _⟩ => ⟨S1x768, .f32⟩
  | .hbm, ⟨37, _⟩ => ⟨S16384x768, .f32⟩
  | .hbm, ⟨38, _⟩ => ⟨S8x2048x768, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x768, .f32⟩
  | .hbm, ⟨43, _⟩ => ⟨S8x2048x2x768, .f32⟩
  | .hbm, ⟨44, _⟩ => ⟨S8x4096x768, .f32⟩
  | .hbm, ⟨45, _⟩ => ⟨S32768x768, .f32⟩
  | .hbm, ⟨46, _⟩ => ⟨S1x768, .f32⟩
  | .hbm, ⟨47, _⟩ => ⟨S32768x768, .f32⟩
  | .hbm, ⟨48, _⟩ => ⟨S8x4096x768, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x768, .f32⟩
  | .local _ .vmem, ⟨9, _⟩ => ⟨S1x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1024x768, .f32⟩
  | .local _ .vmem, ⟨14, _⟩ => ⟨S768x768, .f32⟩
  | .local _ .vmem, ⟨15, _⟩ => ⟨S1x768, .f32⟩
  | .local _ .vmem, ⟨16, _⟩ => ⟨S1024x768, .f32⟩
  | .local _ .vmem, ⟨17, _⟩ => ⟨S1024x768, .f32⟩
  | _, _ => ⟨S8x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S8x64x256_S8x64_d2 : S8x64x256.ReducesTo [2] S8x64
  h_S_ : 0 < S_.numel
  bcast_S8x64_S8x64x1_0_1 : S8x64.BroadcastsInDim S8x64x1 (![0, 1] : Fin 2 → Fin S8x64x1.rank)
  bcast_S8x64x1_S8x64x256_0_1_2 : S8x64x1.BroadcastsInDim S8x64x256 (![0, 1, 2] : Fin 3 → Fin S8x64x256.rank)
  bcast_S8x64x256_S8x64x4x256_0_1_3 : S8x64x256.BroadcastsInDim S8x64x4x256 (![0, 1, 3] : Fin 3 → Fin S8x64x4x256.rank)
  shapeCasts_S8x64x4x256_S8x256x256 : S8x64x4x256.ShapeCasts S8x256x256
  reducesTo_S8x256x256_S8x256_d2 : S8x256x256.ReducesTo [2] S8x256
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  bcast_S8x256x256_S8x256x2x256_0_1_3 : S8x256x256.BroadcastsInDim S8x256x2x256 (![0, 1, 3] : Fin 3 → Fin S8x256x2x256.rank)
  shapeCasts_S8x256x2x256_S8x512x256 : S8x256x2x256.ShapeCasts S8x512x256
  reducesTo_S8x512x256_S8x512_d2 : S8x512x256.ReducesTo [2] S8x512
  bcast_S8x512_S8x512x1_0_1 : S8x512.BroadcastsInDim S8x512x1 (![0, 1] : Fin 2 → Fin S8x512x1.rank)
  bcast_S8x512x1_S8x512x256_0_1_2 : S8x512x1.BroadcastsInDim S8x512x256 (![0, 1, 2] : Fin 3 → Fin S8x512x256.rank)
  bcast_S8x512x256_S8x512x2x256_0_1_3 : S8x512x256.BroadcastsInDim S8x512x2x256 (![0, 1, 3] : Fin 3 → Fin S8x512x2x256.rank)
  shapeCasts_S8x512x2x256_S8x1024x256 : S8x512x2x256.ShapeCasts S8x1024x256
  shapeCasts_S8x1024x256_S8192x256 : S8x1024x256.ShapeCasts S8192x256
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x512_S8x1024x512 : S8192x512.ShapeCasts S8x1024x512
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S8x1024x1_S8x1024x512_0_1_2 : S8x1024x1.BroadcastsInDim S8x1024x512 (![0, 1, 2] : Fin 3 → Fin S8x1024x512.rank)
  bcast_S8x1024x512_S8x1024x2x512_0_1_3 : S8x1024x512.BroadcastsInDim S8x1024x2x512 (![0, 1, 3] : Fin 3 → Fin S8x1024x2x512.rank)
  shapeCasts_S8x1024x2x512_S8x2048x512 : S8x1024x2x512.ShapeCasts S8x2048x512
  shapeCasts_S8x2048x512_S16384x512 : S8x2048x512.ShapeCasts S16384x512
  shapeCasts_S768_S1x768 : S768.ShapeCasts S1x768
  shapeCasts_S1024x512_S1024x512 : S1024x512.ShapeCasts S1024x512
  inb_S512x768_S512x768_0_0 : ∀ a, (![0, 0] : Fin 2 → Nat) a + S512x768.size a ≤ S512x768.size a
  h_S512x768 : 0 < S512x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S16384x768_S8x2048x768 : S16384x768.ShapeCasts S8x2048x768
  reducesTo_S8x2048x768_S8x2048_d2 : S8x2048x768.ReducesTo [2] S8x2048
  bcast_S8x2048_S8x2048x1_0_1 : S8x2048.BroadcastsInDim S8x2048x1 (![0, 1] : Fin 2 → Fin S8x2048x1.rank)
  bcast_S8x2048x1_S8x2048x768_0_1_2 : S8x2048x1.BroadcastsInDim S8x2048x768 (![0, 1, 2] : Fin 3 → Fin S8x2048x768.rank)
  bcast_S8x2048x768_S8x2048x2x768_0_1_3 : S8x2048x768.BroadcastsInDim S8x2048x2x768 (![0, 1, 3] : Fin 3 → Fin S8x2048x2x768.rank)
  shapeCasts_S8x2048x2x768_S8x4096x768 : S8x2048x2x768.ShapeCasts S8x4096x768
  shapeCasts_S8x4096x768_S32768x768 : S8x4096x768.ShapeCasts S32768x768
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S32768x768_S8x4096x768 : S32768x768.ShapeCasts S8x4096x768
  dot_S1024x256_S256x512_S1024x512_1_0_0_1_n_n_wf : DotDims.WF S1024x256 S256x512 S1024x512 [1] [0] [0] [1] [] []
  dot_S1024x512_S512x768_S1024x768_1_0_0_1_n_n_wf : DotDims.WF S1024x512 S512x768 S1024x768 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x768.size a ≤ S16384x768.size a
  hwx1_3 : ∀ i : grid1.Coords, EltTy.bits .f32 = 32 ∨ (Rect.block (s := S16384x768) S1024x768.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S32768x768.size a
  hwx2_0 : ∀ i : grid2.Coords, EltTy.bits .f32 = 32 ∨ (Rect.block (s := S32768x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S32768x768.size a
  hwx2_3 : ∀ i : grid2.Coords, EltTy.bits .f32 = 32 ∨ (Rect.block (s := S32768x768) S1024x768.size (cc2_transform_3 i) (hinb2_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v15) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩
abbrev S8x64 : Shape := ⟨2, ![8, 64]⟩
abbrev S8x64x1 : Shape := ⟨3, ![8, 64, 1]⟩
abbrev S8x64x4x256 : Shape := ⟨4, ![8, 64, 4, 256]⟩
abbrev S8x256x256 : Shape := ⟨3, ![8, 256, 256]⟩
abbrev S8x256 : Shape := ⟨2, ![8, 256]⟩
abbrev S8x256x1 : Shape := ⟨3, ![8, 256, 1]⟩
abbrev S8x256x2x256 : Shape := ⟨4, ![8, 256, 2, 256]⟩
abbrev S8x512x256 : Shape := ⟨3, ![8, 512, 256]⟩
abbrev S8x512 : Shape := ⟨2, ![8, 512]⟩
abbrev S8x512x1 : Shape := ⟨3, ![8, 512, 1]⟩
abbrev S8x512x2x256 : Shape := ⟨4, ![8, 512, 2, 256]⟩
abbrev S8x1024x256 : Shape := ⟨3, ![8, 1024, 256]⟩
abbrev S8x1024x512 : Shape := ⟨3, ![8, 1024, 512]⟩
abbrev S1x1x512 : Shape := ⟨3, ![1, 1, 512]⟩
abbrev S8x1024 : Shape := ⟨2, ![8, 1024]⟩
abbrev S8x1024x1 : Shape := ⟨3, ![8, 1024, 1]⟩
abbrev S8x1024x2x512 : Shape := ⟨4, ![8, 1024, 2, 512]⟩
abbrev S8x2048x512 : Shape := ⟨3, ![8, 2048, 512]⟩
abbrev S8x2048x768 : Shape := ⟨3, ![8, 2048, 768]⟩
abbrev S1x1x768 : Shape := ⟨3, ![1, 1, 768]⟩
abbrev S8x2048 : Shape := ⟨2, ![8, 2048]⟩
abbrev S8x2048x1 : Shape := ⟨3, ![8, 2048, 1]⟩
abbrev S8x2048x2x768 : Shape := ⟨4, ![8, 2048, 2, 768]⟩
abbrev S8x4096x768 : Shape := ⟨3, ![8, 4096, 768]⟩

abbrev nBuf : Space → Nat
  | .hbm => 49
  | .vmem => 0
  | .smem => 0
  | _ => 0

abbrev bufTy : (tb : Table) → Fin (tcTables nBuf tb) → BufTy
  | .hbm, ⟨0, _⟩ => ⟨S8x64x256, .f32⟩
  | .hbm, ⟨1, _⟩ => ⟨S256x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S8x64, .f32⟩
  | .hbm, ⟨9, _⟩ => ⟨S8x64x1, .f32⟩
  | .hbm, ⟨10, _⟩ => ⟨S8x64x256, .f32⟩
  | .hbm, ⟨11, _⟩ => ⟨S8x64x4x256, .f32⟩
  | .hbm, ⟨12, _⟩ => ⟨S8x256x256, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S8x256x256, .f32⟩
  | .hbm, ⟨17, _⟩ => ⟨S8x256x2x256, .f32⟩
  | .hbm, ⟨18, _⟩ => ⟨S8x512x256, .f32⟩
  | .hbm, ⟨19, _⟩ => ⟨S_, .f32⟩
  | .hbm, ⟨20, _⟩ => ⟨S8x512, .f32⟩
  | .hbm, ⟨21, _⟩ => ⟨S8x512x1, .f32⟩
  | .hbm, ⟨22, _⟩ => ⟨S8x512x256, .f32⟩
  | .hbm, ⟨23, _⟩ => ⟨S8x512x2x256, .f32⟩
  | .hbm, ⟨24, _⟩ => ⟨S8x1024x256, .f32⟩
  | .hbm, ⟨25, _⟩ => ⟨S8x1024x512, .f32⟩
  | .hbm, ⟨26, _⟩ => ⟨S1x1x512, .f32⟩
  | .hbm, ⟨27, _⟩ => ⟨S8x1024x512, .f32⟩
  | .hbm, ⟨28, _⟩ => ⟨S8x1024x512, .f32⟩
  | .hbm, ⟨29, _⟩ => ⟨S_, .f32⟩
  | .hbm, ⟨30, _⟩ => ⟨S8x1024, .f32⟩
  | .hbm, ⟨31, _⟩ => ⟨S8x1024x1, .f32⟩
  | .hbm, ⟨32, _⟩ => ⟨S8x1024x512, .f32⟩
  | .hbm, ⟨33, _⟩ => ⟨S8x1024x2x512, .f32⟩
  | .hbm, ⟨34, _⟩ => ⟨S8x2048x512, .f32⟩
  | .hbm, ⟨35, _⟩ => ⟨S8x2048x768, .f32⟩
  | .hbm, ⟨36, _⟩ => ⟨S1x1x768, .f32⟩
  | .hbm, ⟨37, _⟩ => ⟨S8x2048x768, .f32⟩
  | .hbm, ⟨38, _⟩ => ⟨S8x2048x768, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x768, .f32⟩
  | .hbm, ⟨43, _⟩ => ⟨S8x2048x2x768, .f32⟩
  | .hbm, ⟨44, _⟩ => ⟨S8x4096x768, .f32⟩
  | .hbm, ⟨45, _⟩ => ⟨S8x4096x768, .f32⟩
  | .hbm, ⟨46, _⟩ => ⟨S1x1x768, .f32⟩
  | .hbm, ⟨47, _⟩ => ⟨S8x4096x768, .f32⟩
  | .hbm, ⟨48, _⟩ => ⟨S8x4096x768, .f32⟩
  | _, _ => ⟨S8x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  reducesTo_S8x64x256_S8x64_d2 : S8x64x256.ReducesTo [2] S8x64
  h_S_ : 0 < S_.numel
  bcast_S8x64_S8x64x1_0_1 : S8x64.BroadcastsInDim S8x64x1 (![0, 1] : Fin 2 → Fin S8x64x1.rank)
  bcast_S8x64x1_S8x64x256_0_1_2 : S8x64x1.BroadcastsInDim S8x64x256 (![0, 1, 2] : Fin 3 → Fin S8x64x256.rank)
  bcast_S8x64x256_S8x64x4x256_0_1_3 : S8x64x256.BroadcastsInDim S8x64x4x256 (![0, 1, 3] : Fin 3 → Fin S8x64x4x256.rank)
  shapeCasts_S8x64x4x256_S8x256x256 : S8x64x4x256.ShapeCasts S8x256x256
  reducesTo_S8x256x256_S8x256_d2 : S8x256x256.ReducesTo [2] S8x256
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  bcast_S8x256x256_S8x256x2x256_0_1_3 : S8x256x256.BroadcastsInDim S8x256x2x256 (![0, 1, 3] : Fin 3 → Fin S8x256x2x256.rank)
  shapeCasts_S8x256x2x256_S8x512x256 : S8x256x2x256.ShapeCasts S8x512x256
  reducesTo_S8x512x256_S8x512_d2 : S8x512x256.ReducesTo [2] S8x512
  bcast_S8x512_S8x512x1_0_1 : S8x512.BroadcastsInDim S8x512x1 (![0, 1] : Fin 2 → Fin S8x512x1.rank)
  bcast_S8x512x1_S8x512x256_0_1_2 : S8x512x1.BroadcastsInDim S8x512x256 (![0, 1, 2] : Fin 3 → Fin S8x512x256.rank)
  bcast_S8x512x256_S8x512x2x256_0_1_3 : S8x512x256.BroadcastsInDim S8x512x2x256 (![0, 1, 3] : Fin 3 → Fin S8x512x2x256.rank)
  shapeCasts_S8x512x2x256_S8x1024x256 : S8x512x2x256.ShapeCasts S8x1024x256
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S8x1024x1_S8x1024x512_0_1_2 : S8x1024x1.BroadcastsInDim S8x1024x512 (![0, 1, 2] : Fin 3 → Fin S8x1024x512.rank)
  bcast_S8x1024x512_S8x1024x2x512_0_1_3 : S8x1024x512.BroadcastsInDim S8x1024x2x512 (![0, 1, 3] : Fin 3 → Fin S8x1024x2x512.rank)
  shapeCasts_S8x1024x2x512_S8x2048x512 : S8x1024x2x512.ShapeCasts S8x2048x512
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x768_S8x2048_d2 : S8x2048x768.ReducesTo [2] S8x2048
  bcast_S8x2048_S8x2048x1_0_1 : S8x2048.BroadcastsInDim S8x2048x1 (![0, 1] : Fin 2 → Fin S8x2048x1.rank)
  bcast_S8x2048x1_S8x2048x768_0_1_2 : S8x2048x1.BroadcastsInDim S8x2048x768 (![0, 1, 2] : Fin 3 → Fin S8x2048x768.rank)
  bcast_S8x2048x768_S8x2048x2x768_0_1_3 : S8x2048x768.BroadcastsInDim S8x2048x2x768 (![0, 1, 3] : Fin 3 → Fin S8x2048x2x768.rank)
  shapeCasts_S8x2048x2x768_S8x4096x768 : S8x2048x2x768.ShapeCasts S8x4096x768
  bcast_S1x1x768_S8x4096x768_0_1_2 : S1x1x768.BroadcastsInDim S8x4096x768 (![0, 1, 2] : Fin 3 → Fin S8x4096x768.rank)
  dot_S8x1024x256_S256x512_S8x1024x512_2_0_01_1_n_n_wf : DotDims.WF S8x1024x256 S256x512 S8x1024x512 [2] [0] [0, 1] [1] [] []
  dot_S8x2048x512_S512x768_S8x2048x768_2_0_01_1_n_n_wf : DotDims.WF S8x2048x512 S512x768 S8x2048x768 [2] [0] [0, 1] [1] [] []
  dot_S8x4096x768_S768x768_S8x4096x768_2_0_01_1_n_n_wf : DotDims.WF S8x4096x768 S768x768 S8x4096x768 [2] [0] [0, 1] [1] [] []

variable [Facts₀]

def dot_S8x1024x256_S256x512_S8x1024x512_2_0_01_1_n_n : DotDims S8x1024x256 S256x512 S8x1024x512 where
  lhsContracting := [2]
  rhsContracting := [0]
  lhsNonContracting := [0, 1]
  rhsNonContracting := [1]
  lhsBatch := []
  rhsBatch := []
  wf := dot_S8x1024x256_S256x512_S8x1024x512_2_0_01_1_n_n_wf
def dot_S8x2048x512_S512x768_S8x2048x768_2_0_01_1_n_n : DotDims S8x2048x512 S512x768 S8x2048x768 where
  lhsContracting := [2]
  rhsContracting := [0]
  lhsNonContracting := [0, 1]
  rhsNonContracting := [1]
  lhsBatch := []
  rhsBatch := []
  wf := dot_S8x2048x512_S512x768_S8x2048x768_2_0_01_1_n_n_wf
def dot_S8x4096x768_S768x768_S8x4096x768_2_0_01_1_n_n : DotDims S8x4096x768 S768x768 S8x4096x768 where
  lhsContracting := [2]
  rhsContracting := [0]
  lhsNonContracting := [0, 1]
  rhsNonContracting := [1]
  lhsBatch := []
  rhsBatch := []
  wf := dot_S8x4096x768_S768x768_S8x4096x768_2_0_01_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibRowAffine.lean ====
/-
  A linear layer whose bias is kept as a one-row matrix, read as one whole-array function (a general lemma: nothing here
  depends on a program).

  For x : [A, K], w : [K, C] and a row r : [1, C] the map is (x·w + r)[a, c] = Σ_{k<K} x[a, k]·w[k, c] + r[0, c].
  The matrix unit computes it with both operands narrowed to bf16 (the identity on the extended reals), the product taken
  into a zero accumulator, and the one row broadcast down the A rows: the same function of (x, w, r), entry by entry.
-/
import Idealize.ShloMosaic.Lib.ValueIdx
import Idealize.ShloMosaic.Lib.Pipeline.Value
import Idealize.ShloMosaic.PureOps.Ideal.Laws
import proofs.«108986_j42039139893533_1_alg».proof.Proof.LibMatmul

noncomputable section

namespace Cert.Lib.RowAffine

open Idealize.ShloMosaic Idealize.ShloMosaic.ValueIdx

variable {A K C : Nat}

/-- (x·w + r) at every entry: row a of x against column c of w, plus the row's entry of column c. -/
def rowAffine (x : (⟨2, ![A, K]⟩ : Shape).Idx → EReal) (w : (⟨2, ![K, C]⟩ : Shape).Idx → EReal)
    (r : (⟨2, ![1, C]⟩ : Shape).Idx → EReal) : (⟨2, ![A, C]⟩ : Shape).Idx → EReal :=
  fun i => (∑ k : Fin K, x (ix2 (i 0 : Fin A) k) * w (ix2 k (i 1 : Fin C))) + r (ix2 (0 : Fin 1) (i 1 : Fin C))

theorem rowAffine_apply (x : (⟨2, ![A, K]⟩ : Shape).Idx → EReal) (w : (⟨2, ![K, C]⟩ : Shape).Idx → EReal)
    (r : (⟨2, ![1, C]⟩ : Shape).Idx → EReal) (a : Fin A) (c : Fin C) :
    rowAffine x w r (ix2 a c) = (∑ k : Fin K, x (ix2 a k) * w (ix2 k c)) + r (ix2 (0 : Fin 1) c) := rfl

/-- A one-row matrix broadcast down A rows holds, at (p, q), the row's entry q. -/
theorem rowDown_apply {α : Type} (r : (⟨2, ![1, C]⟩ : Shape).Idx → α)
    (h2 : (⟨2, ![1, C]⟩ : Shape).Broadcasts ⟨2, ![A, C]⟩) (p : Fin A) (q : Fin C) :
    broadcastTo ⟨2, ![A, C]⟩ r h2 (ix2 p q) = r (ix2 (0 : Fin 1) q) := by
  refine broadcastTo_apply r h2 (ix2 p q) (ix2 (0 : Fin 1) q) ?_
  intro a
  match a with
  | ⟨0, _⟩ => simp
  | ⟨1, _⟩ =>
    show q.val = if C = 1 then 0 else q.val
    split
    · have := q.isLt; omega
    · rfl

/-- Narrowed operands into a zero accumulator, plus the one row broadcast down: the map above. -/
theorem mxu_rowAffine (x : FVec Ideal ⟨2, ![A, K]⟩ .f32) (w : FVec Ideal ⟨2, ![K, C]⟩ .f32) (r : FVec Ideal ⟨2, ![1, C]⟩ .f32)
    (hx : (⟨2, ![A, K]⟩ : Shape).ShapeCasts ⟨2, ![A, K]⟩) (hlt : FTy.bf16.bits < FTy.f32.bits)
    (h1 : (⟨2, ![1, C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 w hlt) (constant ⟨2, ![A, C]⟩ .f32 0x00000000#32))
      (broadcastTo ⟨2, ![A, C]⟩ (shapeCast ⟨2, ![1, C]⟩ r h1) h2)
    = rowAffine x w r := by
  funext i
  obtain ⟨a, c, rfl⟩ : ∃ (a : Fin A) (c : Fin C), i = ix2 a c := ⟨i 0, i 1, eq_ix2 i⟩
  rw [addf_apply, rowAffine_apply]
  show FloatOps.matmul (DotDims.plain A K C) prec _ _ (constant ⟨2, ![A, C]⟩ .f32 0x00000000#32) (ix2 a c) + _ = _
  rw [Cert.Lib.Matmul.matmul_zero_apply, rowDown_apply]
  simp only [truncf_apply, shapeCast_self]

end Cert.Lib.RowAffine

end
-- ==== Proof.Layer0.lean ====
/-
  The first linear layer's array after its grid has run.

  The call splits the 8192 rows of its input into 8 blocks of 1024 rows; at block t the body multiplies rows
  1024·t … 1024·t + 1023 of the input by the whole weight matrix, adds the bias row, and writes rows 1024·t … 1024·t + 1023
  of the output.  Every output row lies in exactly one block, so the output array ends holding x·w + r at every entry:
  one function of the three arrays the call finds, whatever they hold.
-/
import proofs.«108986_j42039139893533_1_alg».proof.Proof.Gen.KernelIdeal.Frame
import proofs.«108986_j42039139893533_1_alg».proof.Proof.LibRowAffine
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowAffine

variable (V : (c : Dev nD) → (b : Ref sig .tc) → Buf (Elt Ideal) ((c : Thread nD τ).loc b))

theorem hz : (![0, 0] : Fin 2 → Nat) = fun _ => 0 := funext fun a => by fin_cases a <;> rfl

/-- The body's stored value is x·w + r of the three blocks it loads. -/
theorem pay_eq (x0 : Vec Ideal S1024x256 .f32) (x1 : Vec Ideal S256x512 .f32) (x2 : Vec Ideal S1x512 .f32) :
    k0_pay1 (F := Ideal) x0 x1 x2 = rowAffine x0 x1 x2 := by
  unfold k0_pay1
  exact mxu_rowAffine x0 x1 x2 _ _ _ _ none

/-- Where each window's block sits at grid point t: the input's and the output's at row block t, the weights and the bias
    row at the origin (decided over the 8 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 1024·t … of the input array. -/
theorem xblk_apply (c : Dev nD) (t : Fin cfg0.N) (y : S1024x256.Idx) (i : S8192x256.Idx)
    (h0 : (i 0).val = 1024 * t.val + (y 0).val) (h1 : (i 1).val = (y 1).val) :
    (iblk0 V c 0 t : Vec Ideal S1024x256 .f32) y = (V c main_v15 : S8192x256.Idx → EReal) i := by
  obtain ⟨e0, e1, -⟩ := idx_facts t
  unfold iblk0
  rw [View.read_apply]
  show V c main_v15 _ = V c main_v15 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 256 + 1 * (y 1).val = (i 1).val; rw [e1, h1]; omega

/-- The weights' block at every point is the whole weight array. -/
theorem wblk_apply (c : Dev nD) (t : Fin cfg0.N) (y : S256x512.Idx) :
    (iblk0 V c 1 t : Vec Ideal S256x512 .f32) y = (V c main_arg1 : S256x512.Idx → EReal) y := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- The bias row's block at every point is the whole one-row array. -/
theorem rblk_apply (c : Dev nD) (t : Fin cfg0.N) (y : S1x512.Idx) :
    (iblk0 V c 2 t : Vec Ideal S1x512 .f32) y = (V c main_v16 : S1x512.Idx → EReal) y := by
  obtain ⟨-, -, -, -, e0, e1, -⟩ := idx_facts t
  unfold iblk0
  rw [View.read_apply]
  show V c main_v16 _ = V c main_v16 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- x·w + r of the blocks at point t, at entry j, is x·w + r of the whole arrays at row 1024·t + j₀, column j₁. -/
theorem block_eq (c : Dev nD) (t : Fin cfg0.N) (j : S1024x512.Idx) (i : S8192x512.Idx)
    (h0 : (i 0).val = 1024 * t.val + (j 0).val) (h1 : (i 1).val = (j 1).val) :
    rowAffine (iblk0 V c 0 t : Vec Ideal S1024x256 .f32) (iblk0 V c 1 t : Vec Ideal S256x512 .f32)
        (iblk0 V c 2 t : Vec Ideal S1x512 .f32) j
      = rowAffine (V c main_v15 : S8192x256.Idx → EReal) (V c main_arg1 : S256x512.Idx → EReal)
          (V c main_v16 : S1x512.Idx → EReal) i := by
  unfold rowAffine
  have hc : (i 1 : Fin 512) = (j 1 : Fin 512) := Fin.ext h1
  refine congrArg₂ (· + ·) (Finset.sum_congr rfl fun k _ => congrArg₂ (· * ·) ?_ ?_) ?_
  · exact xblk_apply V c t (ix2 (j 0 : Fin 1024) k) (ix2 (i 0 : Fin 8192) k) h0 rfl
  · rw [wblk_apply, hc]
  · rw [rblk_apply, hc]

/-- What point t writes back is block t of x·w + r of the arrays the call finds. -/
theorem flushed_eq (c : Dev nD) (t : Fin cfg0.N) :
    (dat0 V c).flushed 3 t = ((cfg0.win 3).blk t).view.read (Elt Ideal)
      (rowAffine (V c main_v15 : S8192x256.Idx → EReal) (V c main_arg1 : S256x512.Idx → EReal) (V c main_v16 : S1x512.Idx → EReal)) := by
  show (cfg0.win 3).cut (grid0.coords t) ((dat0 V c).after 3 t) = _
  rw [after0_3]
  unfold out0_3
  rw [View.canon_unit_zero hz]
  simp only [View.ld_unit_zero (S := S1024x256) hz, View.ld_unit_zero (S := S256x512) hz, View.ld_unit_zero (S := S1x512) hz]
  rw [pay_eq]
  obtain ⟨-, -, -, -, -, -, e0, e1⟩ := idx_facts t
  funext j
  rw [View.read_apply]
  refine block_eq V c t j _ ?_ ?_
  · show win0_3.index t (0 : Fin 2) * 1024 + 1 * (j 0).val = 1024 * t.val + (j 0).val; rw [e0]; omega
  · show win0_3.index t (1 : Fin 2) * 512 + 1 * (j 1).val = (j 1).val; rw [e1]; omega

/-- An index of the output array is in point t's block iff each coordinate is in the block's range on its axis. -/
theorem mem_blk (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v17).slice (win0_3.rect t)).set ↔ _
  rw [View.set_slice_whole, Rect.mem_set_unit]
  exact Iff.rfl

/-- Row i₀ of the output lies in the block of point i₀ / 1024. -/
theorem cover (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  refine ⟨⟨(i 0).val / 1024, by rw [hN]; omega⟩, flush0_3 _, ?_⟩
  rw [mem_blk]
  obtain ⟨-, -, -, -, -, -, e0, e1⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 512 ≤ (i 1).val ∧ (i 1).val < win0_3.index _ (1 : Fin 2) * 512 + 512
    rw [e1]; omega

/-- The output array after the call: x·w + r of the input, the weights and the bias row as the call finds them. -/
theorem final (c : Dev nD) :
    (dat0 V c).arrAt 3 cfg0.N
      = rowAffine (V c main_v15 : S8192x256.Idx → EReal) (V c main_arg1 : S256x512.Idx → EReal) (V c main_v16 : S1x512.Idx → EReal) :=
  (dat0 V c).arrAt_eq_of_cover 3 _ (fun t _ => flushed_eq V c t) cover

end Cert.KernelIdeal.Layer0

end
-- ==== Proof.Layer1.lean ====
/-
  The second linear layer's array after its grid has run.

  The call splits the 16384 rows of its input into 16 blocks of 1024 rows; at block t the body multiplies rows
  1024·t … 1024·t + 1023 of the input by the whole weight matrix, adds the bias row, and writes rows 1024·t … 1024·t + 1023
  of the output.  Every output row lies in exactly one block, so the output array ends holding x·w + r at every entry:
  one function of the three arrays the call finds, whatever they hold.
-/
import proofs.«108986_j42039139893533_1_alg».proof.Proof.Gen.KernelIdeal.Frame
import proofs.«108986_j42039139893533_1_alg».proof.Proof.LibRowAffine
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowAffine

variable (V : (c : Dev nD) → (b : Ref sig .tc) → Buf (Elt Ideal) ((c : Thread nD τ).loc b))

theorem hz : (![0, 0] : Fin 2 → Nat) = fun _ => 0 := funext fun a => by fin_cases a <;> rfl

/-- The body's stored value is x·w + r of the three blocks it loads. -/
theorem pay_eq (x0 : Vec Ideal S1024x512 .f32) (x1 : Vec Ideal S512x768 .f32) (x2 : Vec Ideal S1x768 .f32) :
    k1_pay1 (F := Ideal) x0 x1 x2 = rowAffine x0 x1 x2 := by
  unfold k1_pay1
  exact mxu_rowAffine x0 x1 x2 _ _ _ _ none

/-- Where each window's block sits at grid point t: the input's and the output's at row block t, the weights and the bias
    row at the origin (decided over the 16 points). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t is rows 1024·t … of the input array. -/
theorem xblk_apply (c : Dev nD) (t : Fin cfg1.N) (y : S1024x512.Idx) (i : S16384x512.Idx)
    (h0 : (i 0).val = 1024 * t.val + (y 0).val) (h1 : (i 1).val = (y 1).val) :
    (iblk1 V c 0 t : Vec Ideal S1024x512 .f32) y = (V c main_v24 : S16384x512.Idx → EReal) i := by
  obtain ⟨e0, e1, -⟩ := idx_facts t
  unfold iblk1
  rw [View.read_apply]
  show V c main_v24 _ = V c main_v24 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 512 + 1 * (y 1).val = (i 1).val; rw [e1, h1]; omega

/-- The weights' block at every point is the whole weight array. -/
theorem wblk_apply (c : Dev nD) (t : Fin cfg1.N) (y : S512x768.Idx) :
    (iblk1 V c 1 t : Vec Ideal S512x768 .f32) y = (V c main_arg3 : S512x768.Idx → EReal) y := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t (0 : Fin 2) * 512 + 1 * (y 0).val = (y 0).val; rw [e0]; omega
  | ⟨1, _⟩ => show win1_1.index t (1 : Fin 2) * 768 + 1 * (y 1).val = (y 1).val; rw [e1]; omega

/-- The bias row's block at every point is the whole one-row array. -/
theorem rblk_apply (c : Dev nD) (t : Fin cfg1.N) (y : S1x768.Idx) :
    (iblk1 V c 2 t : Vec Ideal S1x768 .f32) y = (V c main_v25 : S1x768.Idx → EReal) y := by
  obtain ⟨-, -, -, -, e0, e1, -⟩ := idx_facts t
  unfold iblk1
  rw [View.read_apply]
  show V c main_v25 _ = V c main_v25 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 768 + 1 * (y 1).val = (y 1).val; rw [e1]; omega

/-- x·w + r of the blocks at point t, at entry j, is x·w + r of the whole arrays at row 1024·t + j₀, column j₁. -/
theorem block_eq (c : Dev nD) (t : Fin cfg1.N) (j : S1024x768.Idx) (i : S16384x768.Idx)
    (h0 : (i 0).val = 1024 * t.val + (j 0).val) (h1 : (i 1).val = (j 1).val) :
    rowAffine (iblk1 V c 0 t : Vec Ideal S1024x512 .f32) (iblk1 V c 1 t : Vec Ideal S512x768 .f32)
        (iblk1 V c 2 t : Vec Ideal S1x768 .f32) j
      = rowAffine (V c main_v24 : S16384x512.Idx → EReal) (V c main_arg3 : S512x768.Idx → EReal)
          (V c main_v25 : S1x768.Idx → EReal) i := by
  unfold rowAffine
  have hc : (i 1 : Fin 768) = (j 1 : Fin 768) := Fin.ext h1
  refine congrArg₂ (· + ·) (Finset.sum_congr rfl fun k _ => congrArg₂ (· * ·) ?_ ?_) ?_
  · exact xblk_apply V c t (ix2 (j 0 : Fin 1024) k) (ix2 (i 0 : Fin 16384) k) h0 rfl
  · rw [wblk_apply, hc]
  · rw [rblk_apply, hc]

/-- What point t writes back is block t of x·w + r of the arrays the call finds. -/
theorem flushed_eq (c : Dev nD) (t : Fin cfg1.N) :
    (dat1 V c).flushed 3 t = ((cfg1.win 3).blk t).view.read (Elt Ideal)
      (rowAffine (V c main_v24 : S16384x512.Idx → EReal) (V c main_arg3 : S512x768.Idx → EReal) (V c main_v25 : S1x768.Idx → EReal)) := by
  show (cfg1.win 3).cut (grid1.coords t) ((dat1 V c).after 3 t) = _
  rw [after1_3]
  unfold out1_3
  rw [View.canon_unit_zero hz]
  simp only [View.ld_unit_zero (S := S1024x512) hz, View.ld_unit_zero (S := S512x768) hz, View.ld_unit_zero (S := S1x768) hz]
  rw [pay_eq]
  obtain ⟨-, -, -, -, -, -, e0, e1⟩ := idx_facts t
  funext j
  rw [View.read_apply]
  refine block_eq V c t j _ ?_ ?_
  · show win1_3.index t (0 : Fin 2) * 1024 + 1 * (j 0).val = 1024 * t.val + (j 0).val; rw [e0]; omega
  · show win1_3.index t (1 : Fin 2) * 768 + 1 * (j 1).val = (j 1).val; rw [e1]; omega

/-- An index of the output array is in point t's block iff each coordinate is in the block's range on its axis. -/
theorem mem_blk (t : Fin cfg1.N) (i : S16384x768.Idx) :
    i ∈ ((cfg1.win 3).blk t).view.set ↔ ∀ a : Fin 2, win1_3.index t a * S1024x768.size a ≤ (i a).val ∧ (i a).val < win1_3.index t a * S1024x768.size a + S1024x768.size a := by
  show i ∈ ((View.whole main_v26).slice (win1_3.rect t)).set ↔ _
  rw [View.set_slice_whole, Rect.mem_set_unit]
  exact Iff.rfl

/-- Row i₀ of the output lies in the block of point i₀ / 1024. -/
theorem cover (i : S16384x768.Idx) : ∃ t : Fin cfg1.N, (cfg1.win 3).flush t = true ∧ i ∈ ((cfg1.win 3).blk t).view.set := by
  have hi0 : (i 0).val < 16384 := (i 0).isLt
  have hi1 : (i 1).val < 768 := (i 1).isLt
  have hN : cfg1.N = 16 := N_1
  refine ⟨⟨(i 0).val / 1024, by rw [hN]; omega⟩, flush1_3 _, ?_⟩
  rw [mem_blk]
  obtain ⟨-, -, -, -, -, -, e0, e1⟩ := idx_facts ⟨(i 0).val / 1024, by rw [hN]; omega⟩
  intro a
  match a with
  | ⟨0, _⟩ =>
    show win1_3.index _ (0 : Fin 2) * 1024 ≤ (i 0).val ∧ (i 0).val < win1_3.index _ (0 : Fin 2) * 1024 + 1024
    rw [e0]; show (i 0).val / 1024 * 1024 ≤ (i 0).val ∧ (i 0).val < (i 0).val / 1024 * 1024 + 1024; omega
  | ⟨1, _⟩ =>
    show win1_3.index _ (1 : Fin 2) * 768 ≤ (i 1).val ∧ (i 1).val < win1_3.index _ (1 : Fin 2) * 768 + 768
    rw [e1]; omega

/-- The output array after the call: x·w + r of the input, the weights and the bias row as the call finds them. -/
theorem final (c : Dev nD) :
    (dat1 V c).arrAt 3 cfg1.N
      = rowAffine (V c main_v24 : S16384x512.Idx → EReal) (V c main_arg3 : S512x768.Idx → EReal) (V c main_v25 : S1x768.Idx → EReal) :=
  (dat1 V c).arrAt_eq_of_cover 3 _ (fun t _ => flushed_eq V c t) cover

end Cert.KernelIdeal.Layer1

end
-- ==== Proof.Layer2.lean ====
/-
  The third linear layer's array after its grid has run.

  The call splits the 32768 rows of its input into 32 blocks of 1024 rows; at block t the body multiplies rows
  1024·t … 1024·t + 1023 of the input by the whole weight matrix, adds the bias row, and writes rows 1024·t … 1024·t + 1023
  of the output.  Every output row lies in exactly one block, so the output array ends holding x·w + r at every entry:
  one function of the three arrays the call finds, whatever they hold.
-/
import proofs.«108986_j42039139893533_1_alg».proof.Proof.Gen.KernelIdeal.Frame
import proofs.«108986_j42039139893533_1_alg».proof.Proof.LibRowAffine
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowAffine

variable (V : (c : Dev nD) → (b : Ref sig .tc) → Buf (Elt Ideal) ((c : Thread nD τ).loc b))

theorem hz : (![0, 0] : Fin 2 → Nat) = fun _ => 0 := funext fun a => by fin_cases a <;> rfl

/-- The body's stored value is x·w + r of the three blocks it loads. -/
theorem pay_eq (x0 : Vec Ideal S1024x768 .f32) (x1 : Vec Ideal S768x768 .f32) (x2 : Vec Ideal S1x768 .f32) :
    k2_pay1 (F := Ideal) x0 x1 x2 = rowAffine x0 x1 x2 := by
  unfold k2_pay1
  exact mxu_rowAffine x0 x1 x2 _ _ _ _ none

/-- Where each window's block sits at grid point t: the input's and the output's at row block t, the weights and the bias
    row at the origin (decided over the 32 points). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point t is rows 1024·t … of the input array. -/
theorem xblk_apply (c : Dev nD) (t : Fin cfg2.N) (y : S1024x768.Idx) (i : S32768x768.Idx)
    (h0 : (i 0).val = 1024 * t.val + (y 0).val) (h1 : (i 1).val = (y 1).val) :
    (iblk2 V c 0 t : Vec Ideal S1024x768 .f32) y = (V c main_v33 : S32768x768.Idx → EReal) i := by
  obtain ⟨e0, e1, -⟩ := idx_facts t
  unfold iblk2
  rw [View.read_apply]
  show V c main_v33 _ = V c main_v33 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 768 + 1 * (y 1).val = (i 1).val; rw [e1, h1]; omega

/-- The weights' block at every point is the whole weight array. -/
theorem wblk_apply (c : Dev nD) (t : Fin cfg2.N) (y : S768x768.Idx) :
    (iblk2 V c 1 t : Vec Ideal S768x768 .f32) y = (V c main_arg5 : S768x768.Idx → EReal) y := by
  obtain ⟨-, -, e0, e1, -⟩ := idx_facts t
  unfold iblk2
  rw [View.read_apply]
  show V c main_arg5 _ = V c main_arg5 _
  congr 1
  funext a
  apply Fin.ext
  match a with
  | ⟨0, _⟩ => show win2_1.index t (0 : Fin 2) * 768 + 1 * (y 0).val = (y 0).val; rw [e0]; omega
  | ⟨1, _⟩ => show win2_1.index t (1 : Fin 2) * 768 + 1 * (y 1).val = (y 1).val; rw [e1]; omega

/-- The bias row's block at every point is the whole one-row array. -/
theorem rblk_apply (c : Dev nD) (t : Fin cfg2.N) (y : S1x768.Idx) :
    (iblk2 V c 2 t : Vec Ideal S1x768 .f32) y = (V c main_v34 : S1x768.Idx → EReal) y := by
  obtain ⟨-, -, -, -, e0, e1, -⟩ := idx_facts t
  unfold iblk2
  rw [View.read_apply]
  show V c main_v34 _ = V c main_v34 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 768 + 1 * (y 1).val = (y 1).val; rw [e1]; omega

/-- x·w + r of the blocks at point t, at entry j, is x·w + r of the whole arrays at row 1024·t + j₀, column j₁. -/
theorem block_eq (c : Dev nD) (t : Fin cfg2.N) (j : S1024x768.Idx) (i : S32768x768.Idx)
    (h0 : (i 0).val = 1024 * t.val + (j 0).val) (h1 : (i 1).val = (j 1).val) :
    rowAffine (iblk2 V c 0 t : Vec Ideal S1024x768 .f32) (iblk2 V c 1 t : Vec Ideal S768x768 .f32)
        (iblk2 V c 2 t : Vec Ideal S1x768 .f32) j
      = rowAffine (V c main_v33 : S32768x768.Idx → EReal) (V c main_arg5 : S768x768.Idx → EReal)
          (V c main_v34 : S1x768.Idx → EReal) i := by
  unfold rowAffine
  have hc : (i 1 : Fin 768) = (j 1 : Fin 768) := Fin.ext h1
  refine congrArg₂ (· + ·) (Finset.sum_congr rfl fun k _ => congrArg₂ (· * ·) ?_ ?_) ?_
  · exact xblk_apply V c t (ix2 (j 0 : Fin 1024) k) (ix2 (i 0 : Fin 32768) k) h0 rfl
  · rw [wblk_apply, hc]
  · rw [rblk_apply, hc]

/-- What point t writes back is block t of x·w + r of the arrays the call finds. -/
theorem flushed_eq (c : Dev nD) (t : Fin cfg2.N) :
    (dat2 V c).flushed 3 t = ((cfg2.win 3).blk t).view.read (Elt Ideal)
      (rowAffine (V c main_v33 : S32768x768.Idx → EReal) (V c main_arg5 : S768x768.Idx → EReal) (V c main_v34 : S1x768.Idx → EReal)) := by
  show (cfg2.win 3).cut (grid2.coords t) ((dat2 V c).after 3 t) = _
  rw [after2_3]
  unfold out2_3
  rw [View.canon_unit_zero hz]
  simp only [View.ld_unit_zero (S := S1024x768) hz, View.ld_unit_zero (S := S768x768) hz, View.ld_unit_zero (S := S1x768) hz]
  rw [pay_eq]
  obtain ⟨-, -, -, -, -, -, e0, e1⟩ := idx_facts t
  funext j
  rw [View.read_apply]
  refine block_eq V c t j _ ?_ ?_
  · show win2_3.index t (0 : Fin 2) * 1024 + 1 * (j 0).val = 1024 * t.val + (j 0).val; rw [e0]; omega
  · show win2_3.index t (1 : Fin 2) * 768 + 1 * (j 1).val = (j 1).val; rw [e1]; omega

/-- An index of the output array is in point t's block iff each coordinate is in the block's range on its axis. -/
theorem mem_blk (t : Fin cfg2.N) (i : S32768x768.Idx) :
    i ∈ ((cfg2.win 3).blk t).view.set ↔ ∀ a : Fin 2, win2_3.index t a * S1024x768.size a ≤ (i a).val ∧ (i a).val < win2_3.index t a * S1024x768.size a + S1024x768.size a := by
  show i ∈ ((View.whole main_v35).slice (win2_3.rect t)).set ↔ _
  rw [View.set_slice_whole, Rect.mem_set_unit]
  exact Iff.rfl

/-- Row i₀ of the output lies in the block of point i₀ / 1024. -/
theorem cover (i : S32768x768.Idx) : ∃ t : Fin cfg2.N, (cfg2.win 3).flush t = true ∧ i ∈ ((cfg2.win 3).blk t).view.set := by
  have hi0 : (i 0).val < 32768 := (i 0).isLt
  have hi1 : (i 1).val < 768 := (i 1).isLt
  have hN : cfg2.N = 32 := N_2
  refine ⟨⟨(i 0).val / 1024, by rw [hN]; omega⟩, flush2_3 _, ?_⟩
  rw [mem_blk]
  obtain ⟨-, -, -, -, -, -, e0, e1⟩ := idx_facts ⟨(i 0).val / 1024, by rw [hN]; omega⟩
  intro a
  match a with
  | ⟨0, _⟩ =>
    show win2_3.index _ (0 : Fin 2) * 1024 ≤ (i 0).val ∧ (i 0).val < win2_3.index _ (0 : Fin 2) * 1024 + 1024
    rw [e0]; show (i 0).val / 1024 * 1024 ≤ (i 0).val ∧ (i 0).val < (i 0).val / 1024 * 1024 + 1024; omega
  | ⟨1, _⟩ =>
    show win2_3.index _ (1 : Fin 2) * 768 ≤ (i 1).val ∧ (i 1).val < win2_3.index _ (1 : Fin 2) * 768 + 768
    rw [e1]; omega

/-- The output array after the call: x·w + r of the input, the weights and the bias row as the call finds them. -/
theorem final (c : Dev nD) :
    (dat2 V c).arrAt 3 cfg2.N
      = rowAffine (V c main_v33 : S32768x768.Idx → EReal) (V c main_arg5 : S768x768.Idx → EReal) (V c main_v34 : S1x768.Idx → EReal) :=
  (dat2 V c).arrAt_eq_of_cover 3 _ (fun t _ => flushed_eq V c t) cover

end Cert.KernelIdeal.Layer2

end
-- ==== Proof.KernelValue.lean ====
/-
  The idealized program's result as one function of its seven arguments.

  The program runs host operations, then the first linear layer, host operations, the second layer, host operations, the
  third layer, and one last reshape.  Each host stretch applies a length expansion (sum over the channels, broadcast back to
  every channel, each position repeated) and flattens batch and length into rows; each layer leaves x·w + r in its output
  array (the three layer modules).  Reading the buffers' contents boundary by boundary gives the result as the composition
  below: nothing is computed, the contents at one boundary are named from those at the boundary before.
-/
import proofs.«108986_j42039139893533_1_alg».proof.Proof.KernelRun
import proofs.«108986_j42039139893533_1_alg».proof.Proof.Layer0
import proofs.«108986_j42039139893533_1_alg».proof.Proof.Layer1
import proofs.«108986_j42039139893533_1_alg».proof.Proof.Layer2
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert.Lib.RowAffine

/-! ## The composition -/

/-- The three length expansions of the input (by 4, by 2, by 2), then batch and length flattened into 8192 rows. -/
def lead (a0 : (⟨S8x64x256, .f32⟩ : BufTy).Contents (Elt Ideal)) : (⟨S8192x256, .f32⟩ : BufTy).Contents (Elt Ideal) :=
  shapeCast S8192x256 (shapeCast S8x1024x256 (broadcastInDim S8x512x2x256 ![0, 1, 3] bcast_S8x512x256_S8x512x2x256_0_1_3 (broadcastInDim S8x512x256 ![0, 1, 2] bcast_S8x512x1_S8x512x256_0_1_2 (broadcastInDim S8x512x1 ![0, 1] bcast_S8x512_S8x512x1_0_1 (Host.reduceAdd (F := Ideal) (shapeCast S8x512x256 (broadcastInDim S8x256x2x256 ![0, 1, 3] bcast_S8x256x256_S8x256x2x256_0_1_3 (broadcastInDim S8x256x256 ![0, 1, 2] bcast_S8x256x1_S8x256x256_0_1_2 (broadcastInDim S8x256x1 ![0, 1] bcast_S8x256_S8x256x1_0_1 (Host.reduceAdd (F := Ideal) (shapeCast S8x256x256 (broadcastInDim S8x64x4x256 ![0, 1, 3] bcast_S8x64x256_S8x64x4x256_0_1_3 (broadcastInDim S8x64x256 ![0, 1, 2] bcast_S8x64x1_S8x64x256_0_1_2 (broadcastInDim S8x64x1 ![0, 1] bcast_S8x64_S8x64x1_0_1 (Host.reduceAdd (F := Ideal) (a0) (constant (F := Ideal) S_ .f32 0x00000000#32) reducesTo_S8x64x256_S8x64_d2 h_S_)))) shapeCasts_S8x64x4x256_S8x256x256) (constant (F := Ideal) S_ .f32 0x00000000#32) reducesTo_S8x256x256_S8x256_d2 h_S_)))) shapeCasts_S8x256x2x256_S8x512x256) (constant (F := Ideal) S_ .f32 0x00000000#32) reducesTo_S8x512x256_S8x512_d2 h_S_)))) shapeCasts_S8x512x2x256_S8x1024x256) shapeCasts_S8x1024x256_S8192x256

/-- The first layer: the expanded input times the first weights, plus the first bias as one row. -/
def layer0 (a0 : (⟨S8x64x256, .f32⟩ : BufTy).Contents (Elt Ideal)) (a1 : (⟨S256x512, .f32⟩ : BufTy).Contents (Elt Ideal)) (a2 : (⟨S512, .f32⟩ : BufTy).Contents (Elt Ideal)) : (⟨S8192x512, .f32⟩ : BufTy).Contents (Elt Ideal) :=
  rowAffine (lead a0) a1 (shapeCast S1x512 a2 shapeCasts_S512_S1x512)

/-- Between the first and second layers: rows back to batch and length, one expansion by 2, flattened into 16384 rows. -/
def mid1 (y : (⟨S8192x512, .f32⟩ : BufTy).Contents (Elt Ideal)) : (⟨S16384x512, .f32⟩ : BufTy).Contents (Elt Ideal) :=
  shapeCast S16384x512 (shapeCast S8x2048x512 (broadcastInDim S8x1024x2x512 ![0, 1, 3] bcast_S8x1024x512_S8x1024x2x512_0_1_3 (broadcastInDim S8x1024x512 ![0, 1, 2] bcast_S8x1024x1_S8x1024x512_0_1_2 (broadcastInDim S8x1024x1 ![0, 1] bcast_S8x1024_S8x1024x1_0_1 (Host.reduceAdd (F := Ideal) (shapeCast S8x1024x512 y shapeCasts_S8192x512_S8x1024x512) (constant (F := Ideal) S_ .f32 0x00000000#32) reducesTo_S8x1024x512_S8x1024_d2 h_S_)))) shapeCasts_S8x1024x2x512_S8x2048x512) shapeCasts_S8x2048x512_S16384x512

/-- The second layer. -/
def layer1 (y : (⟨S8192x512, .f32⟩ : BufTy).Contents (Elt Ideal)) (a3 : (⟨S512x768, .f32⟩ : BufTy).Contents (Elt Ideal)) (a4 : (⟨S768, .f32⟩ : BufTy).Contents (Elt Ideal)) : (⟨S16384x768, .f32⟩ : BufTy).Contents (Elt Ideal) :=
  rowAffine (mid1 y) a3 (shapeCast S1x768 a4 shapeCasts_S768_S1x768)

/-- Between the second and third layers: rows back to batch and length, one expansion by 2, flattened into 32768 rows. -/
def mid2 (x : (⟨S16384x768, .f32⟩ : BufTy).Contents (Elt Ideal)) : (⟨S32768x768, .f32⟩ : BufTy).Contents (Elt Ideal) :=
  shapeCast S32768x768 (shapeCast S8x4096x768 (broadcastInDim S8x2048x2x768 ![0, 1, 3] bcast_S8x2048x768_S8x2048x2x768_0_1_3 (broadcastInDim S8x2048x768 ![0, 1, 2] bcast_S8x2048x1_S8x2048x768_0_1_2 (broadcastInDim S8x2048x1 ![0, 1] bcast_S8x2048_S8x2048x1_0_1 (Host.reduceAdd (F := Ideal) (shapeCast S8x2048x768 x shapeCasts_S16384x768_S8x2048x768) (constant (F := Ideal) S_ .f32 0x00000000#32) reducesTo_S8x2048x768_S8x2048_d2 h_S_)))) shapeCasts_S8x2048x2x768_S8x4096x768) shapeCasts_S8x4096x768_S32768x768

/-- The third layer. -/
def layer2 (x : (⟨S16384x768, .f32⟩ : BufTy).Contents (Elt Ideal)) (a5 : (⟨S768x768, .f32⟩ : BufTy).Contents (Elt Ideal)) (a6 : (⟨S768, .f32⟩ : BufTy).Contents (Elt Ideal)) : (⟨S32768x768, .f32⟩ : BufTy).Contents (Elt Ideal) :=
  rowAffine (mid2 x) a5 (shapeCast S1x768 a6 shapeCasts_S768_S1x768)

/-- The program's result: the third layer's rows back to batch and length. -/
def result (a0 : (⟨S8x64x256, .f32⟩ : BufTy).Contents (Elt Ideal)) (a1 : (⟨S256x512, .f32⟩ : BufTy).Contents (Elt Ideal)) (a2 : (⟨S512, .f32⟩ : BufTy).Contents (Elt Ideal)) (a3 : (⟨S512x768, .f32⟩ : BufTy).Contents (Elt Ideal)) (a4 : (⟨S768, .f32⟩ : BufTy).Contents (Elt Ideal))
    (a5 : (⟨S768x768, .f32⟩ : BufTy).Contents (Elt Ideal)) (a6 : (⟨S768, .f32⟩ : BufTy).Contents (Elt Ideal)) : (⟨S8x4096x768, .f32⟩ : BufTy).Contents (Elt Ideal) :=
  shapeCast S8x4096x768 (layer2 (layer1 (layer0 a0 a1 a2) a3 a4) a5 a6) shapeCasts_S32768x768_S8x4096x768

variable (m : (ℓ : Loc nD τ sig) → Buf (Elt Ideal) ℓ) (ρ : Dev nD → PrngReg)

/-! ## An argument's buffer keeps its launch contents at every boundary: no host operation and no layer writes it -/

theorem W1_arg1 (c : Dev nD) : W1 m ρ c (Proc.devRef .tc main_arg1) = m ((c : Thread nD τ).loc main_arg1) := by
  show StableHlo.after hostOps0 _ (Proc.devRef .tc main_arg1) = _
  after_results_simp
theorem W1_arg3 (c : Dev nD) : W1 m ρ c (Proc.devRef .tc main_arg3) = m ((c : Thread nD τ).loc main_arg3) := by
  show StableHlo.after hostOps0 _ (Proc.devRef .tc main_arg3) = _
  after_results_simp
theorem W1_arg4 (c : Dev nD) : W1 m ρ c (Proc.devRef .tc main_arg4) = m ((c : Thread nD τ).loc main_arg4) := by
  show StableHlo.after hostOps0 _ (Proc.devRef .tc main_arg4) = _
  after_results_simp
theorem W1_arg5 (c : Dev nD) : W1 m ρ c (Proc.devRef .tc main_arg5) = m ((c : Thread nD τ).loc main_arg5) := by
  show StableHlo.after hostOps0 _ (Proc.devRef .tc main_arg5) = _
  after_results_simp
theorem W1_arg6 (c : Dev nD) : W1 m ρ c (Proc.devRef .tc main_arg6) = m ((c : Thread nD τ).loc main_arg6) := by
  show StableHlo.after hostOps0 _ (Proc.devRef .tc main_arg6) = _
  after_results_simp
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg3 (c : Dev nD) : W3 m ρ c (Proc.devRef .tc main_arg3) = m ((c : Thread nD τ).loc main_arg3) := by
  show StableHlo.after hostOps1 _ (Proc.devRef .tc main_arg3) = _
  after_results_simp
  exact W2_arg3 m ρ c
theorem W3_arg5 (c : Dev nD) : W3 m ρ c (Proc.devRef .tc main_arg5) = m ((c : Thread nD τ).loc main_arg5) := by
  show StableHlo.after hostOps1 _ (Proc.devRef .tc main_arg5) = _
  after_results_simp
  exact W2_arg5 m ρ c
theorem W3_arg6 (c : Dev nD) : W3 m ρ c (Proc.devRef .tc main_arg6) = m ((c : Thread nD τ).loc main_arg6) := by
  show StableHlo.after hostOps1 _ (Proc.devRef .tc main_arg6) = _
  after_results_simp
  exact W2_arg6 m ρ c
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg5 (c : Dev nD) : W5 m ρ c (Proc.devRef .tc main_arg5) = m ((c : Thread nD τ).loc main_arg5) := by
  show StableHlo.after hostOps2 _ (Proc.devRef .tc main_arg5) = _
  after_results_simp
  exact W4_arg5 m ρ c

/-! ## The first layer -/

theorem entry0_x (c : Dev nD) : V1 m ρ c main_v15 = lead (m ((c : Thread nD τ).loc main_arg0)) := by
  show StableHlo.after hostOps0 _ (Proc.devRef .tc main_v15) = _
  unfold lead
  after_results_simp <;> rfl
theorem entry0_w (c : Dev nD) : V1 m ρ c main_arg1 = m ((c : Thread nD τ).loc main_arg1) := W1_arg1 m ρ c
theorem entry0_r (c : Dev nD) : V1 m ρ c main_v16 = shapeCast S1x512 (m ((c : Thread nD τ).loc main_arg2)) shapeCasts_S512_S1x512 := by
  show StableHlo.after hostOps0 _ (Proc.devRef .tc main_v16) = _
  after_results_simp <;> rfl

/-- The first layer's output array when the layer is left. -/
theorem out0 (c : Dev nD) : W2 m ρ c (Proc.devRef .tc main_v17)
    = layer0 (m ((c : Thread nD τ).loc main_arg0)) (m ((c : Thread nD τ).loc main_arg1)) (m ((c : Thread nD τ).loc main_arg2)) := by
  refine (W2_arr m ρ c 3).trans ((Cert.KernelIdeal.Layer0.final (V1 m ρ) c).trans ?_)
  rw [entry0_x, entry0_w, entry0_r]
  rfl

/-! ## The second layer -/

theorem entry1_x (c : Dev nD) : V3 m ρ c main_v24 = mid1 (W2 m ρ c (Proc.devRef .tc main_v17)) := by
  show StableHlo.after hostOps1 _ (Proc.devRef .tc main_v24) = _
  unfold mid1
  after_results_simp <;> rfl
theorem entry1_w (c : Dev nD) : V3 m ρ c main_arg3 = m ((c : Thread nD τ).loc main_arg3) := W3_arg3 m ρ c
theorem entry1_r (c : Dev nD) : V3 m ρ c main_v25 = shapeCast S1x768 (m ((c : Thread nD τ).loc main_arg4)) shapeCasts_S768_S1x768 := by
  show StableHlo.after hostOps1 _ (Proc.devRef .tc main_v25) = _
  after_results_simp
  rw [W2_arg4 m ρ c]
  rfl

/-- The second layer's output array when the layer is left. -/
theorem out1 (c : Dev nD) : W4 m ρ c (Proc.devRef .tc main_v26)
    = layer1 (W2 m ρ c (Proc.devRef .tc main_v17)) (m ((c : Thread nD τ).loc main_arg3)) (m ((c : Thread nD τ).loc main_arg4)) := by
  refine (W4_arr m ρ c 3).trans ((Cert.KernelIdeal.Layer1.final (V3 m ρ) c).trans ?_)
  rw [entry1_x, entry1_w, entry1_r]
  rfl

/-! ## The third layer -/

theorem entry2_x (c : Dev nD) : V5 m ρ c main_v33 = mid2 (W4 m ρ c (Proc.devRef .tc main_v26)) := by
  show StableHlo.after hostOps2 _ (Proc.devRef .tc main_v33) = _
  unfold mid2
  after_results_simp <;> rfl
theorem entry2_w (c : Dev nD) : V5 m ρ c main_arg5 = m ((c : Thread nD τ).loc main_arg5) := W5_arg5 m ρ c
theorem entry2_r (c : Dev nD) : V5 m ρ c main_v34 = shapeCast S1x768 (m ((c : Thread nD τ).loc main_arg6)) shapeCasts_S768_S1x768 := by
  show StableHlo.after hostOps2 _ (Proc.devRef .tc main_v34) = _
  after_results_simp
  rw [W4_arg6 m ρ c]
  rfl

/-- The third layer's output array when the layer is left. -/
theorem out2 (c : Dev nD) : W6 m ρ c (Proc.devRef .tc main_v35)
    = layer2 (W4 m ρ c (Proc.devRef .tc main_v26)) (m ((c : Thread nD τ).loc main_arg5)) (m ((c : Thread nD τ).loc main_arg6)) := by
  refine (W6_arr m ρ c 3).trans ((Cert.KernelIdeal.Layer2.final (V5 m ρ) c).trans ?_)
  rw [entry2_x, entry2_w, entry2_r]
  rfl

/-! ## The result -/

/-- The result buffer at the last boundary is `result` of the arguments' launch contents. -/
theorem result_eq (c : Dev nD) : W7 m ρ c (Proc.devRef .tc main_v36)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  show StableHlo.after hostOps3 _ (Proc.devRef .tc main_v36) = _
  unfold result
  after_results_simp
  rw [out2 m ρ c, out1 m ρ c, out0 m ρ c]
  rfl

/-- The idealized program's run with its result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (run_result m ρ)

end Cert.KernelIdeal.Result

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.Dense1.lean ====
/-
  The first linear layer, the two programs' spellings side by side.

  The host computes it on the [8, 1024, 256] array directly: a product with the [256, 512] weights contracting the last axis,
  plus the bias broadcast over batch and length.  The kernel's program flattens batch and length into 8192 rows, takes
  x·w + r on the rows with the bias as one row, and restores batch and length.  Entry (β, l, n) of either is
  Σ_k y[β, l, k]·w[k, n] + b[n]: no arithmetic law is needed, only that row 1024·β + l of the flattened array is
  (β, l) of the original.
-/
import proofs.«108986_j42039139893533_1_alg».proof.Proof.Gen.ReferenceIdeal.Read
import proofs.«108986_j42039139893533_1_alg».proof.Proof.LibRowAffine
import proofs.«108986_j42039139893533_1_alg».proof.Proof.LibLayout
import Idealize.ShloMosaic.Lib.Pipeline.Value
import Idealize.ShloMosaic.Lib.ValueIdx
import Idealize.ShloMosaic.PureOps.Ideal.Laws

noncomputable section

namespace Cert.ReferenceIdeal.Dense1

open Cert.ReferenceIdeal Cert.ReferenceIdeal.Gen Cert.ReferenceIdeal.Read
open Idealize.ShloMosaic Idealize.ShloMosaic.TcCoe Idealize.ShloMosaic.ValueIdx
open Cert.Lib.RowAffine

/-- The host's product at (β, l, n): the sum over k of y[β, l, k]·w[k, n], whatever the left operand. -/
theorem dot_apply (y : FVec Ideal S8x1024x256 .f32) (w : FVec Ideal S256x512 .f32) (i : S8x1024x512.Idx) :
    Host.dotGeneral (F := Ideal) dot_S8x1024x256_S256x512_S8x1024x512_2_0_01_1_n_n none y w i = ∑ k : Fin 256, y (lidx_main_v15 i k) * w (ridx_main_v15 i k) := by
  simp only [Host.dotGeneral]
  rw [Ideal.dotGeneral_apply, ← Equiv.sum_comp (ValueIdx.contrEquiv1 dot_S8x1024x256_S256x512_S8x1024x512_2_0_01_1_n_n 256 rfl rfl).symm]
  refine Finset.sum_congr rfl fun k _ => ?_
  have hk := ValueIdx.contrEquiv1_symm_val dot_S8x1024x256_S256x512_S8x1024x512_2_0_01_1_n_n 256 rfl rfl k
  have el : dot_S8x1024x256_S256x512_S8x1024x512_2_0_01_1_n_n.lhsIdx i ((ValueIdx.contrEquiv1 dot_S8x1024x256_S256x512_S8x1024x512_2_0_01_1_n_n 256 rfl rfl).symm k) = lidx_main_v15 i k := funext fun a => Fin.ext (by
    match a with
    | ⟨0, _⟩ => exact lhs_main_v15_0 _ _
    | ⟨1, _⟩ => exact lhs_main_v15_1 _ _
    | ⟨2, _⟩ => exact (lhs_main_v15_2 _ _).trans hk)
  have er : dot_S8x1024x256_S256x512_S8x1024x512_2_0_01_1_n_n.rhsIdx i ((ValueIdx.contrEquiv1 dot_S8x1024x256_S256x512_S8x1024x512_2_0_01_1_n_n 256 rfl rfl).symm k) = ridx_main_v15 i k := funext fun a => Fin.ext (by
    match a with
    | ⟨0, _⟩ => exact (rhs_main_v15_0 _ _).trans hk
    | ⟨1, _⟩ => exact rhs_main_v15_1 _ _)
  rw [el, er]

/-- The bias broadcast over batch and length, at (β, l, n), is b[n]. -/
theorem bias_apply (b : FVec Ideal S512 .f32) (i : S8x1024x512.Idx) :
    broadcastInDim S8x1024x512 ![0, 1, 2] bcast_S1x1x512_S8x1024x512_0_1_2 (broadcastInDim S1x1x512 ![2] bcast_S512_S1x1x512_2 b) i = b (ix1 (⟨(i 2).val, (i 2).isLt⟩ : Fin 512)) := by
  refine ((val_main_v17_apply (F := Ideal) b i).trans (val_main_v16_apply (F := Ideal) b _)).trans (congrArg b ?_)
  funext a
  match a with
  | ⟨0, _⟩ => rfl

/-- Flatten, x·w + r on the rows, restore: the host's product plus bias. -/
theorem flat_eq (y : FVec Ideal S8x1024x256 .f32) (w : FVec Ideal S256x512 .f32)
    (b : FVec Ideal S512 .f32)
    (h1 : S8x1024x256.ShapeCasts ⟨2, ![8192, 256]⟩) (h2 : S512.ShapeCasts ⟨2, ![1, 512]⟩)
    (h3 : (⟨2, ![8192, 512]⟩ : Shape).ShapeCasts S8x1024x512) :
    shapeCast S8x1024x512 (rowAffine (shapeCast ⟨2, ![8192, 256]⟩ y h1) w (shapeCast ⟨2, ![1, 512]⟩ b h2)) h3
      = addf (Host.dotGeneral (F := Ideal) dot_S8x1024x256_S256x512_S8x1024x512_2_0_01_1_n_n none y w)
          (broadcastInDim S8x1024x512 ![0, 1, 2] bcast_S1x1x512_S8x1024x512_0_1_2 (broadcastInDim S1x1x512 ![2] bcast_S512_S1x1x512_2 b)) := by
  funext i
  have h0 : (i 0).val < 8 := (i 0).isLt
  have hl : (i 1).val < 1024 := (i 1).isLt
  have hn : (i 2).val < 512 := (i 2).isLt
  rw [addf_apply, dot_apply, bias_apply]
  rw [shapeCast_apply _ h3 i (ix2 (⟨(i 0).val * 1024 + (i 1).val, by omega⟩ : Fin 8192) (⟨(i 2).val, hn⟩ : Fin 512))
    (by rw [Shape.rowMajor_val_two, Shape.rowMajor_val_three]; rfl)]
  rw [rowAffine_apply, Cert.Lib.Layout.rowCast_apply]
  refine congrArg (· + _) (Finset.sum_congr rfl fun k _ => congrArg₂ (· * ·) ?_ (congrArg w ?_))
  · refine shapeCast_apply y h1 _ (lidx_main_v15 i k) ?_
    rw [Shape.rowMajor_val_two, Shape.rowMajor_val_three]
    rfl
  · funext a
    match a with
    | ⟨0, _⟩ => rfl
    | ⟨1, _⟩ => rfl

end Cert.ReferenceIdeal.Dense1

end
-- ==== Proof.Dense2.lean ====
/-
  The second linear layer, the two programs' spellings side by side.

  The host computes it on the [8, 2048, 512] array directly: a product with the [512, 768] weights contracting the last axis,
  plus the bias broadcast over batch and length.  The kernel's program flattens batch and length into 16384 rows, takes
  x·w + r on the rows with the bias as one row, and restores batch and length.  Entry (β, l, n) of either is
  Σ_k y[β, l, k]·w[k, n] + b[n]: no arithmetic law is needed, only that row 2048·β + l of the flattened array is
  (β, l) of the original.
-/
import proofs.«108986_j42039139893533_1_alg».proof.Proof.Gen.ReferenceIdeal.Read
import proofs.«108986_j42039139893533_1_alg».proof.Proof.LibRowAffine
import proofs.«108986_j42039139893533_1_alg».proof.Proof.LibLayout
import Idealize.ShloMosaic.Lib.Pipeline.Value
import Idealize.ShloMosaic.Lib.ValueIdx
import Idealize.ShloMosaic.PureOps.Ideal.Laws

noncomputable section

namespace Cert.ReferenceIdeal.Dense2

open Cert.ReferenceIdeal Cert.ReferenceIdeal.Gen Cert.ReferenceIdeal.Read
open Idealize.ShloMosaic Idealize.ShloMosaic.TcCoe Idealize.ShloMosaic.ValueIdx
open Cert.Lib.RowAffine

/-- The host's product at (β, l, n): the sum over k of y[β, l, k]·w[k, n], whatever the left operand. -/
theorem dot_apply (y : FVec Ideal S8x2048x512 .f32) (w : FVec Ideal S512x768 .f32) (i : S8x2048x768.Idx) :
    Host.dotGeneral (F := Ideal) dot_S8x2048x512_S512x768_S8x2048x768_2_0_01_1_n_n none y w i = ∑ k : Fin 512, y (lidx_main_v24 i k) * w (ridx_main_v24 i k) := by
  simp only [Host.dotGeneral]
  rw [Ideal.dotGeneral_apply, ← Equiv.sum_comp (ValueIdx.contrEquiv1 dot_S8x2048x512_S512x768_S8x2048x768_2_0_01_1_n_n 512 rfl rfl).symm]
  refine Finset.sum_congr rfl fun k _ => ?_
  have hk := ValueIdx.contrEquiv1_symm_val dot_S8x2048x512_S512x768_S8x2048x768_2_0_01_1_n_n 512 rfl rfl k
  have el : dot_S8x2048x512_S512x768_S8x2048x768_2_0_01_1_n_n.lhsIdx i ((ValueIdx.contrEquiv1 dot_S8x2048x512_S512x768_S8x2048x768_2_0_01_1_n_n 512 rfl rfl).symm k) = lidx_main_v24 i k := funext fun a => Fin.ext (by
    match a with
    | ⟨0, _⟩ => exact lhs_main_v24_0 _ _
    | ⟨1, _⟩ => exact lhs_main_v24_1 _ _
    | ⟨2, _⟩ => exact (lhs_main_v24_2 _ _).trans hk)
  have er : dot_S8x2048x512_S512x768_S8x2048x768_2_0_01_1_n_n.rhsIdx i ((ValueIdx.contrEquiv1 dot_S8x2048x512_S512x768_S8x2048x768_2_0_01_1_n_n 512 rfl rfl).symm k) = ridx_main_v24 i k := funext fun a => Fin.ext (by
    match a with
    | ⟨0, _⟩ => exact (rhs_main_v24_0 _ _).trans hk
    | ⟨1, _⟩ => exact rhs_main_v24_1 _ _)
  rw [el, er]

/-- The bias broadcast over batch and length, at (β, l, n), is b[n]. -/
theorem bias_apply (b : FVec Ideal S768 .f32) (i : S8x2048x768.Idx) :
    broadcastInDim S8x2048x768 ![0, 1, 2] bcast_S1x1x768_S8x2048x768_0_1_2 (broadcastInDim S1x1x768 ![2] bcast_S768_S1x1x768_2 b) i = b (ix1 (⟨(i 2).val, (i 2).isLt⟩ : Fin 768)) := by
  refine ((val_main_v26_apply (F := Ideal) b i).trans (val_main_v25_apply (F := Ideal) b _)).trans (congrArg b ?_)
  funext a
  match a with
  | ⟨0, _⟩ => rfl

/-- Flatten, x·w + r on the rows, restore: the host's product plus bias. -/
theorem flat_eq (y : FVec Ideal S8x2048x512 .f32) (w : FVec Ideal S512x768 .f32)
    (b : FVec Ideal S768 .f32)
    (h1 : S8x2048x512.ShapeCasts ⟨2, ![16384, 512]⟩) (h2 : S768.ShapeCasts ⟨2, ![1, 768]⟩)
    (h3 : (⟨2, ![16384, 768]⟩ : Shape).ShapeCasts S8x2048x768) :
    shapeCast S8x2048x768 (rowAffine (shapeCast ⟨2, ![16384, 512]⟩ y h1) w (shapeCast ⟨2, ![1, 768]⟩ b h2)) h3
      = addf (Host.dotGeneral (F := Ideal) dot_S8x2048x512_S512x768_S8x2048x768_2_0_01_1_n_n none y w)
          (broadcastInDim S8x2048x768 ![0, 1, 2] bcast_S1x1x768_S8x2048x768_0_1_2 (broadcastInDim S1x1x768 ![2] bcast_S768_S1x1x768_2 b)) := by
  funext i
  have h0 : (i 0).val < 8 := (i 0).isLt
  have hl : (i 1).val < 2048 := (i 1).isLt
  have hn : (i 2).val < 768 := (i 2).isLt
  rw [addf_apply, dot_apply, bias_apply]
  rw [shapeCast_apply _ h3 i (ix2 (⟨(i 0).val * 2048 + (i 1).val, by omega⟩ : Fin 16384) (⟨(i 2).val, hn⟩ : Fin 768))
    (by rw [Shape.rowMajor_val_two, Shape.rowMajor_val_three]; rfl)]
  rw [rowAffine_apply, Cert.Lib.Layout.rowCast_apply]
  refine congrArg (· + _) (Finset.sum_congr rfl fun k _ => congrArg₂ (· * ·) ?_ (congrArg w ?_))
  · refine shapeCast_apply y h1 _ (lidx_main_v24 i k) ?_
    rw [Shape.rowMajor_val_two, Shape.rowMajor_val_three]
    rfl
  · funext a
    match a with
    | ⟨0, _⟩ => rfl
    | ⟨1, _⟩ => rfl

end Cert.ReferenceIdeal.Dense2

end
-- ==== Proof.Dense3.lean ====
/-
  The third linear layer, the two programs' spellings side by side.

  The host computes it on the [8, 4096, 768] array directly: a product with the [768, 768] weights contracting the last axis,
  plus the bias broadcast over batch and length.  The kernel's program flattens batch and length into 32768 rows, takes
  x·w + r on the rows with the bias as one row, and restores batch and length.  Entry (β, l, n) of either is
  Σ_k y[β, l, k]·w[k, n] + b[n]: no arithmetic law is needed, only that row 4096·β + l of the flattened array is
  (β, l) of the original.
-/
import proofs.«108986_j42039139893533_1_alg».proof.Proof.Gen.ReferenceIdeal.Read
import proofs.«108986_j42039139893533_1_alg».proof.Proof.LibRowAffine
import proofs.«108986_j42039139893533_1_alg».proof.Proof.LibLayout
import Idealize.ShloMosaic.Lib.Pipeline.Value
import Idealize.ShloMosaic.Lib.ValueIdx
import Idealize.ShloMosaic.PureOps.Ideal.Laws

noncomputable section

namespace Cert.ReferenceIdeal.Dense3

open Cert.ReferenceIdeal Cert.ReferenceIdeal.Gen Cert.ReferenceIdeal.Read
open Idealize.ShloMosaic Idealize.ShloMosaic.TcCoe Idealize.ShloMosaic.ValueIdx
open Cert.Lib.RowAffine

/-- The host's product at (β, l, n): the sum over k of y[β, l, k]·w[k, n], whatever the left operand. -/
theorem dot_apply (y : FVec Ideal S8x4096x768 .f32) (w : FVec Ideal S768x768 .f32) (i : S8x4096x768.Idx) :
    Host.dotGeneral (F := Ideal) dot_S8x4096x768_S768x768_S8x4096x768_2_0_01_1_n_n none y w i = ∑ k : Fin 768, y (lidx_main_v33 i k) * w (ridx_main_v33 i k) := by
  simp only [Host.dotGeneral]
  rw [Ideal.dotGeneral_apply, ← Equiv.sum_comp (ValueIdx.contrEquiv1 dot_S8x4096x768_S768x768_S8x4096x768_2_0_01_1_n_n 768 rfl rfl).symm]
  refine Finset.sum_congr rfl fun k _ => ?_
  have hk := ValueIdx.contrEquiv1_symm_val dot_S8x4096x768_S768x768_S8x4096x768_2_0_01_1_n_n 768 rfl rfl k
  have el : dot_S8x4096x768_S768x768_S8x4096x768_2_0_01_1_n_n.lhsIdx i ((ValueIdx.contrEquiv1 dot_S8x4096x768_S768x768_S8x4096x768_2_0_01_1_n_n 768 rfl rfl).symm k) = lidx_main_v33 i k := funext fun a => Fin.ext (by
    match a with
    | ⟨0, _⟩ => exact lhs_main_v33_0 _ _
    | ⟨1, _⟩ => exact lhs_main_v33_1 _ _
    | ⟨2, _⟩ => exact (lhs_main_v33_2 _ _).trans hk)
  have er : dot_S8x4096x768_S768x768_S8x4096x768_2_0_01_1_n_n.rhsIdx i ((ValueIdx.contrEquiv1 dot_S8x4096x768_S768x768_S8x4096x768_2_0_01_1_n_n 768 rfl rfl).symm k) = ridx_main_v33 i k := funext fun a => Fin.ext (by
    match a with
    | ⟨0, _⟩ => exact (rhs_main_v33_0 _ _).trans hk
    | ⟨1, _⟩ => exact rhs_main_v33_1 _ _)
  rw [el, er]

/-- The bias broadcast over batch and length, at (β, l, n), is b[n]. -/
theorem bias_apply (b : FVec Ideal S768 .f32) (i : S8x4096x768.Idx) :
    broadcastInDim S8x4096x768 ![0, 1, 2] bcast_S1x1x768_S8x4096x768_0_1_2 (broadcastInDim S1x1x768 ![2] bcast_S768_S1x1x768_2 b) i = b (ix1 (⟨(i 2).val, (i 2).isLt⟩ : Fin 768)) := by
  refine ((val_main_v35_apply (F := Ideal) b i).trans (val_main_v34_apply (F := Ideal) b _)).trans (congrArg b ?_)
  funext a
  match a with
  | ⟨0, _⟩ => rfl

/-- Flatten, x·w + r on the rows, restore: the host's product plus bias. -/
theorem flat_eq (y : FVec Ideal S8x4096x768 .f32) (w : FVec Ideal S768x768 .f32)
    (b : FVec Ideal S768 .f32)
    (h1 : S8x4096x768.ShapeCasts ⟨2, ![32768, 768]⟩) (h2 : S768.ShapeCasts ⟨2, ![1, 768]⟩)
    (h3 : (⟨2, ![32768, 768]⟩ : Shape).ShapeCasts S8x4096x768) :
    shapeCast S8x4096x768 (rowAffine (shapeCast ⟨2, ![32768, 768]⟩ y h1) w (shapeCast ⟨2, ![1, 768]⟩ b h2)) h3
      = addf (Host.dotGeneral (F := Ideal) dot_S8x4096x768_S768x768_S8x4096x768_2_0_01_1_n_n none y w)
          (broadcastInDim S8x4096x768 ![0, 1, 2] bcast_S1x1x768_S8x4096x768_0_1_2 (broadcastInDim S1x1x768 ![2] bcast_S768_S1x1x768_2 b)) := by
  funext i
  have h0 : (i 0).val < 8 := (i 0).isLt
  have hl : (i 1).val < 4096 := (i 1).isLt
  have hn : (i 2).val < 768 := (i 2).isLt
  rw [addf_apply, dot_apply, bias_apply]
  rw [shapeCast_apply _ h3 i (ix2 (⟨(i 0).val * 4096 + (i 1).val, by omega⟩ : Fin 32768) (⟨(i 2).val, hn⟩ : Fin 768))
    (by rw [Shape.rowMajor_val_two, Shape.rowMajor_val_three]; rfl)]
  rw [rowAffine_apply, Cert.Lib.Layout.rowCast_apply]
  refine congrArg (· + _) (Finset.sum_congr rfl fun k _ => congrArg₂ (· * ·) ?_ (congrArg w ?_))
  · refine shapeCast_apply y h1 _ (lidx_main_v33 i k) ?_
    rw [Shape.rowMajor_val_two, Shape.rowMajor_val_three]
    rfl
  · funext a
    match a with
    | ⟨0, _⟩ => rfl
    | ⟨1, _⟩ => rfl

end Cert.ReferenceIdeal.Dense3

end
-- ==== Proof.Agree.lean ====
/-
  The two idealized programs compute one function of the seven arguments.

  The kernel's program is expand·expand·expand, layer, expand, layer, expand, layer with each layer taken on flattened rows;
  the reference is the same chain with each layer taken on the [batch, length, channel] array.  A flattened layer IS the
  unflattened one (the three stage modules), and everything between the layers is literally the same host operations on
  both sides, so the two terms coincide once the three layers are rewritten, innermost last.
-/
import proofs.«108986_j42039139893533_1_alg».proof.Proof.KernelValue
import proofs.«108986_j42039139893533_1_alg».proof.Proof.Dense1
import proofs.«108986_j42039139893533_1_alg».proof.Proof.Dense2
import proofs.«108986_j42039139893533_1_alg».proof.Proof.Dense3

set_option maxRecDepth 16384

noncomputable section

namespace Cert.Proof.Agree

open Idealize.ShloMosaic Idealize.ShloMosaic.TcCoe

/-- The kernel's composition is the reference's last stage. -/
theorem result_eq_ref (a0 : (⟨Cert.KernelIdeal.S8x64x256, .f32⟩ : BufTy).Contents (Elt Ideal)) (a1 : (⟨Cert.KernelIdeal.S256x512, .f32⟩ : BufTy).Contents (Elt Ideal)) (a2 : (⟨Cert.KernelIdeal.S512, .f32⟩ : BufTy).Contents (Elt Ideal)) (a3 : (⟨Cert.KernelIdeal.S512x768, .f32⟩ : BufTy).Contents (Elt Ideal))
    (a4 : (⟨Cert.KernelIdeal.S768, .f32⟩ : BufTy).Contents (Elt Ideal)) (a5 : (⟨Cert.KernelIdeal.S768x768, .f32⟩ : BufTy).Contents (Elt Ideal)) (a6 : (⟨Cert.KernelIdeal.S768, .f32⟩ : BufTy).Contents (Elt Ideal)) :
    Cert.KernelIdeal.Result.result a0 a1 a2 a3 a4 a5 a6
      = Cert.ReferenceIdeal.Read.val_main_v36 (F := Ideal) a0 a1 a2 a3 a4 a5 a6 := by
  unfold Cert.KernelIdeal.Result.result Cert.KernelIdeal.Result.layer2 Cert.KernelIdeal.Result.mid2
    Cert.KernelIdeal.Result.layer1 Cert.KernelIdeal.Result.mid1 Cert.KernelIdeal.Result.layer0 Cert.KernelIdeal.Result.lead
  rw [Cert.ReferenceIdeal.Dense3.flat_eq, Cert.ReferenceIdeal.Dense2.flat_eq, Cert.ReferenceIdeal.Dense1.flat_eq]
  rfl

end Cert.Proof.Agree

end
-- ==== Proof.lean ====
/-
  The certificate of three linear layers between length expansions, against the plain array program.

  Both programs expand the input's length three times (each expansion: sum over the channels, broadcast the sum to every
  channel, repeat each position), apply a linear layer, expand, apply a second layer, expand, and apply a third.  The
  kernel's program takes each layer on the array flattened to rows, in blocks of 1024 rows, with operands narrowed to bf16
  (the identity on the extended reals) and the bias as one row; the reference takes it as a product contracting the last
  axis plus a broadcast bias.  Entry by entry both are Σ_k y[β, l, k]·w[k, n] + b[n], so the results agree as extended reals;
  no arithmetic law beyond that reading is used, and the precondition is never opened.

  The frames of the two kernel programs are the generated ones; the reference's frame is its generated run with the result
  dropped; the idealization rewrote nothing.
-/
import proofs.«108986_j42039139893533_1_alg».proof.Defs
import proofs.«108986_j42039139893533_1_alg».proof.Proof.Gen.Kernel
import proofs.«108986_j42039139893533_1_alg».proof.Proof.Gen.Kernel.Frame
import proofs.«108986_j42039139893533_1_alg».proof.Proof.Gen.KernelIdeal
import proofs.«108986_j42039139893533_1_alg».proof.Proof.Gen.KernelIdeal.Frame
import proofs.«108986_j42039139893533_1_alg».proof.Proof.Gen.ReferenceIdeal
import proofs.«108986_j42039139893533_1_alg».proof.Proof.Gen.Pre_finite_inputs
import proofs.«108986_j42039139893533_1_alg».proof.Proof.Gen.ReferenceIdeal.Run
import proofs.«108986_j42039139893533_1_alg».proof.Proof.Gen.ReferenceIdeal.Read
import proofs.«108986_j42039139893533_1_alg».proof.Proof.KernelValue
import proofs.«108986_j42039139893533_1_alg».proof.Proof.Agree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel's result at its composition of the arguments and the reference's at its own term of arguments
    that agree: one function. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact (Cert.ReferenceIdeal.Read.val_main_v36_eq (F := Ideal) _ _ _ _ _ _ _).trans
    (Cert.Proof.Agree.result_eq_ref _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
